-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1677722 : Shape := ⟨1, ![1677722]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1677722 : S_.BroadcastsInDim S1677722 (![] : Fin 0 → Fin S1677722.rank)
  reducesTo_S1677722_S_d0 : S1677722.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S1677722 .f32) (main_arg2 : FVec F S4096 .f32) (main_arg3 : IVec S1677722 32) (main_arg4 : IVec S1677722 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1677722 .f32 := Host.absf main_arg1
  let main_cst_0 : FVec F S_ .f32 := constant S_ .f32 0x7F800000#32
  let main_v5 : FVec F S1677722 .f32 := broadcastInDim S1677722 ![] bcast_S_S1677722 main_cst_0
  let main_v6 : IVec S1677722 1 := cmpf .olt main_v4 main_v5
  let main_c_1 : IVec S_ 1 := constantI S_ 1 1#1
  let main_v7 : IVec S_ 1 := (fun x v => Host.reduce IntOp.andi x v reducesTo_S1677722_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S1677722 : Shape := ⟨1, ![1677722]⟩
abbrev S4096 : Shape := ⟨1, ![4096]⟩
abbrev S_ : Shape := ⟨0, ![]⟩
abbrev S1677722x1 : Shape := ⟨2, ![1677722, 1]⟩
abbrev S1677722x2 : Shape := ⟨2, ![1677722, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 27
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1677722, .f32⟩
  | .hbm, ⟨2, _⟩ => ⟨S4096, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S1x4096, .f32⟩
  | .hbm, ⟨26, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1677722x2_S1677722_n_01_01_1_wf : ScatterDims.WF S4096x4096 S1677722x2 S1677722 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1677722 : Shape := ⟨1, ![1677722]⟩
abbrev S4096 : Shape := ⟨1, ![4096]⟩
abbrev S_ : Shape := ⟨0, ![]⟩
abbrev S1677722x1 : Shape := ⟨2, ![1677722, 1]⟩
abbrev S1677722x2 : Shape := ⟨2, ![1677722, 2]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1677722, .f32⟩
  | .hbm, ⟨2, _⟩ => ⟨S4096, .f32⟩
  | .hbm, ⟨3, _⟩ => ⟨S1677722, .i32⟩
  | .hbm, ⟨4, _⟩ => ⟨S1677722, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1677722, .i32⟩
  | .hbm, ⟨9, _⟩ => ⟨S1677722, .i1⟩
  | .hbm, ⟨10, _⟩ => ⟨S_, .i32⟩
  | .hbm, ⟨11, _⟩ => ⟨S1677722, .i32⟩
  | .hbm, ⟨12, _⟩ => ⟨S1677722, .i32⟩
  | .hbm, ⟨13, _⟩ => ⟨S1677722, .i32⟩
  | .hbm, ⟨14, _⟩ => ⟨S_, .i32⟩
  | .hbm, ⟨15, _⟩ => ⟨S1677722, .i32⟩
  | .hbm, ⟨16, _⟩ => ⟨S1677722, .i1⟩
  | .hbm, ⟨17, _⟩ => ⟨S_, .i32⟩
  | .hbm, ⟨18, _⟩ => ⟨S1677722, .i32⟩
  | .hbm, ⟨19, _⟩ => ⟨S1677722, .i32⟩
  | .hbm, ⟨20, _⟩ => ⟨S1677722, .i32⟩
  | .hbm, ⟨21, _⟩ => ⟨S1677722x1, .i32⟩
  | .hbm, ⟨22, _⟩ => ⟨S1677722x1, .i32⟩
  | .hbm, ⟨23, _⟩ => ⟨S1677722x2, .i32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1677722 : S_.BroadcastsInDim S1677722 (![] : Fin 0 → Fin S1677722.rank)
  bcast_S1677722_S1677722x1_0 : S1677722.BroadcastsInDim S1677722x1 (![0] : Fin 1 → Fin S1677722x1.rank)
  concatenates_S1677722x1_S1677722x1_S1677722x2_d1 : Shape.Concatenates [S1677722x1, S1677722x1] S1677722x2 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S1677722x2_S1677722_n_01_01_1_wf : ScatterDims.WF S4096x4096 S1677722x2 S1677722 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S1677722x2_S1677722_n_01_01_1 : ScatterDims S4096x4096 S1677722x2 S1677722 where
  updateWindowDims := []
  insertedWindowDims := [0, 1]
  scatterDimsToOperandDims := [0, 1]
  indexVectorDim := 1
  wf := scatter_S4096x4096_S1677722x2_S1677722_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the kernel body leaves behind, case by case, as values.

  The body keeps a 1024 × 1024 accumulator. At the first step of a reduction run it stores zeros there; at every step
  it reads the accumulator and stores back the accumulator plus the product of the step's `x` block and `W` block; at
  the last step it also stores, into the output block, the rectifier of the accumulator plus the bias row. So the
  accumulator after a first step is `0 + x·W`, after a later step `acc + x·W`, and the output block at a last step is
  the rectifier applied to that new accumulator plus the bias.
-/
import proofs.«150053_j2310692405778_1_alg».proof.Proof.Gen.KernelIdeal.Frame
import Idealize.ShloMosaic.Lib.Pipeline.Value
import Idealize.ShloMosaic.Lib.Tactic

noncomputable section

namespace Cert.KernelIdeal.KVal

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A first step leaves the zero block plus the step's product in the accumulator. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step leaves the accumulator it found plus the step's product. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .f32) (x2 : Vec F S1x1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- A last step leaves the same in the accumulator, -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and in the output block the rectifier of that accumulator plus the bias row. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .f32) (x2 : Vec F S1x1024 .f32) (xs0 : Vec F S1024x1024 .f32) :
    out0_C_3 c i a3 h3 a4 h4 a5 h5 a6 h6 a7 h7 hc0 hc1 x0 x1 x2 xs0 = k0_pay3 (k0_pay2 x0 x1 xs0) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1x1024) hz, View.readCov_unit_zero (S := S1024x1024) _ hz]

end Cert.KernelIdeal.KVal

end
-- ==== Proof.Spec.lean ====
/-
  The mathematics both programs compute, stated once over the extended reals.

  With `x` and `W` two 4096 × 4096 matrices and `b` a row of 4096 entries, the result at (p, q) is the leaky rectifier of
  `∑ₖ x(p, k) · W(k, q) + b(q)`: the value itself where it is at least zero, and the f32 literal nearest one tenth times
  it elsewhere. The kernel forms the sum in four blocks of 1024 consecutive `k`, added in order onto zero; the reference
  forms it at once and adds the bias on the other side. Addition of extended reals is commutative and associative, so
  the two agree at every input, the infinities included: no finiteness is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The matrices' shape and the bias row's. -/
abbrev SM : Shape := ⟨2, ![4096, 4096]⟩
abbrev SB : Shape := ⟨2, ![1, 4096]⟩

/-- The leaky rectifier at one extended real, as both programs spell it: a comparison with the zero pattern selects the
    value or its product with the pattern of one tenth. -/
def act (v : EReal) : EReal :=
  Scalar.select (FloatOps.cmpf (F := Ideal) (φ := .f32) .oge v (Ideal.ofBits .f32 0x00000000#32)) v
    (Ideal.ofBits .f32 0x3DCCCCCD#32 * v)

/-- Column index `1024 · kb + kk` of block `kb`, offset `kk`. -/
def kidx (kb : Fin 4) (kk : Fin 1024) : Fin 4096 := ⟨1024 * kb.val + kk.val, by have := kb.isLt; have := kk.isLt; omega⟩

/-- The entry (p, q) of the dense layer's output. -/
def denseAt (x W : SM.Idx → EReal) (b : SB.Idx → EReal) (p q : Fin 4096) : EReal :=
  act ((∑ k : Fin 4096, x (ix2 p k) * W (ix2 k q)) + b (ix2 0 q))

/-- The dense layer's output as one function of the index. -/
def dense (x W : SM.Idx → EReal) (b : SB.Idx → EReal) : SM.Idx → EReal := fun j => denseAt x W b (j 0) (j 1)

theorem dense_ix2 (x W : SM.Idx → EReal) (b : SB.Idx → EReal) (p q : Fin 4096) :
    dense x W b (ix2 p q) = denseAt x W b p q := rfl

/-- A sum over 4096 indices is the sum over the four blocks of the sums over each block's 1024 offsets. -/
theorem sum_blocks {M : Type*} [AddCommMonoid M] (f : Fin 4096 → M) :
    ∑ k : Fin 4096, f k = ∑ kb : Fin 4, ∑ kk : Fin 1024, f (kidx kb kk) := by
  rw [← Finset.sum_product' (f := fun kb kk => f (kidx kb kk)), Finset.univ_product_univ]
  refine (Fintype.sum_equiv (finProdFinEquiv (m := 4) (n := 1024)) (fun z => f (kidx z.1 z.2)) f (fun z => ?_)).symm
  congr 1
  apply Fin.ext
  show 1024 * z.1.val + z.2.val = z.2.val + 1024 * z.1.val
  omega

/-- The same with the blocks counted by naturals below four, as a run of grid points counts them. -/
theorem sum_blocks_range {M : Type*} [AddCommMonoid M] (f : Fin 4096 → M) (g : ℕ → M)
    (hg : ∀ kb : Fin 4, g kb.val = ∑ kk : Fin 1024, f (kidx kb kk)) :
    ∑ s ∈ Finset.range 4, g s = ∑ k : Fin 4096, f k := by
  rw [sum_blocks, Finset.sum_range]
  exact Finset.sum_congr rfl fun kb _ => hg kb

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.Payload.lean ====
/-
  The body's three stored values read at an entry, over the extended reals.

  The reset value is zero everywhere. The accumulation step's value at (p, q) is the accumulator's entry plus the sum
  over the 1024 offsets `k` of `x(p, k) · W(k, q)` of the two loaded blocks (the change of float format before the
  product is the identity here, and the product unit accumulates into a zero block). The output value at (p, q) is the
  rectifier of the accumulator's entry plus the bias row's entry in column `q`.
-/
import proofs.«150053_j2310692405778_1_alg».proof.Proof.Gen.KernelIdeal.Skeleton
import proofs.«150053_j2310692405778_1_alg».proof.Proof.Spec
import proofs.«150053_j2310692405778_1_alg».proof.Proof.LibPlainDot
import proofs.«150053_j2310692405778_1_alg».proof.Proof.LibRowBroadcast
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.ValueIdx

/-- The reset value is zero at every entry. -/
theorem reset_apply (j : S1024x1024.Idx) : k0_pay1 (F := Ideal) j = 0 := by
  unfold k0_pay1
  simp only [shapeCast_self]
  show Ideal.ofBits .f32 0x00000000#32 = 0
  exact Ideal.ofBits_zero_f32

/-- The accumulation step at (p, q): the accumulator there plus the row-by-column sum of the two blocks. -/
theorem step_apply (xb wb acc : Vec Ideal S1024x1024 .f32) (p q : Fin 1024) :
    k0_pay2 (F := Ideal) xb wb acc (ix2 p q) = acc (ix2 p q) + ∑ k : Fin 1024, xb (ix2 p k) * wb (ix2 k q) := by
  unfold k0_pay2
  simp only [shapeCast_self]
  show acc (ix2 p q) + FloatOps.matmul (F := Ideal) dot_S1024x1024_S1024x1024_S1024x1024_1_0_0_1_n_n none
      (truncf (F := Ideal) .bf16 xb bitsLt_bf16_f32) (truncf (F := Ideal) .bf16 wb bitsLt_bf16_f32) (constant (F := Ideal) S1024x1024 .f32 0x00000000#32) (ix2 p q) = _
  rw [Cert.LibPlainDot.matmul_zero_apply dot_S1024x1024_S1024x1024_S1024x1024_1_0_0_1_n_n rfl rfl rfl rfl rfl rfl]
  rfl

/-- The output value at (p, q): the rectifier of the accumulator's entry plus the bias entry of column q. -/
theorem emit_apply (acc : Vec Ideal S1024x1024 .f32) (brow : Vec Ideal S1x1024 .f32) (p q : Fin 1024) :
    k0_pay3 (F := Ideal) acc brow (ix2 p q) = Cert.Spec.act (acc (ix2 p q) + brow (ix2 (0 : Fin 1) q)) := by
  unfold k0_pay3
  simp only [shapeCast_self]
  have hb : broadcastTo S1024x1024 brow broadcasts_S1x1024_S1024x1024 (ix2 p q) = brow (ix2 (0 : Fin 1) q) :=
    RowBroadcast.broadcastTo_row brow _ p q
  show Cert.Spec.act (acc (ix2 p q) + broadcastTo S1024x1024 brow broadcasts_S1x1024_S1024x1024 (ix2 p q)) = _
  rw [hb]

end Cert.KernelIdeal.KVal

end
-- ==== Proof.Blocks.lean ====
/-
  Where each window's block sits in its array.

  The grid has 64 points; point `t` has row block `t / 16`, column block `(t / 4) % 4` and reduction step `t % 4`. At
  point `t` the `x` window holds rows `1024 · (t / 16) + p` and columns `1024 · (t % 4) + k` of `x`; the `W` window
  holds rows `1024 · (t % 4) + k` and columns `1024 · ((t / 4) % 4) + q` of `W`; the bias window holds columns
  `1024 · ((t / 4) % 4) + q` of the one bias row.
-/
import proofs.«150053_j2310692405778_1_alg».proof.Proof.Gen.KernelIdeal.Frame
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The three arrays the region reads, as it finds them, and the three blocks of a point, at their literal types. -/
abbrev xarr (c : Dev nD) : Vec F S4096x4096 .f32 := V m c main_arg0
abbrev warr (c : Dev nD) : Vec F S4096x4096 .f32 := V m c main_v14
abbrev barr (c : Dev nD) : Vec F S1x4096 .f32 := V m c main_v15
abbrev xblk (c : Dev nD) (t : Fin cfg0.N) : Vec F S1024x1024 .f32 := iblk m c 0 t
abbrev wblk (c : Dev nD) (t : Fin cfg0.N) : Vec F S1024x1024 .f32 := iblk m c 1 t
abbrev bblk (c : Dev nD) (t : Fin cfg0.N) : Vec F S1x1024 .f32 := iblk m c 2 t

/-- The block indices of the three input windows and the output window, decided over the grid. -/
theorem idx_x : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx_w : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem idx_b : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem idx_o : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-- A block of window 0 read at (p, k), whatever the arrays hold: the array's entry at the block's offset. -/
theorem read_x (c : Dev nD) (A : (b : Ref sig .tc) → Buf (Elt F) ((c : Thread nD τ).loc b)) (t : Fin cfg0.N)
    (p k : Fin 1024) (P K : Fin 4096) (hP : P.val = 1024 * (t.val / 16) + p.val) (hK : K.val = 1024 * (t.val % 4) + k.val) :
    ((cfg0.win 0).blk t).view.read (Elt F) (A (Pipeline.arrRef spec0 0)) (ix2 p k) = A main_arg0 (ix2 P K) := by
  have hemb : ((cfg0.win 0).blk t).view.emb (ix2 p k) = ix2 P K := by
    funext a
    apply Fin.ext
    match a with
    | ⟨0, _⟩ => show win0_0.index t 0 * 1024 + 1 * p.val = P.val; rw [(idx_x t).1, hP]; omega
    | ⟨1, _⟩ => show win0_0.index t 1 * 1024 + 1 * k.val = K.val; rw [(idx_x t).2, hK]; omega
  rw [View.read_apply, hemb]
  rfl

/-- The same for window 1 at (k, q), -/
theorem read_w (c : Dev nD) (A : (b : Ref sig .tc) → Buf (Elt F) ((c : Thread nD τ).loc b)) (t : Fin cfg0.N)
    (k q : Fin 1024) (K Q : Fin 4096) (hK : K.val = 1024 * (t.val % 4) + k.val) (hQ : Q.val = 1024 * (t.val / 4 % 4) + q.val) :
    ((cfg0.win 1).blk t).view.read (Elt F) (A (Pipeline.arrRef spec0 1)) (ix2 k q) = A main_v14 (ix2 K Q) := by
  have hemb : ((cfg0.win 1).blk t).view.emb (ix2 k q) = ix2 K Q := by
    funext a
    apply Fin.ext
    match a with
    | ⟨0, _⟩ => show win0_1.index t 0 * 1024 + 1 * k.val = K.val; rw [(idx_w t).1, hK]; omega
    | ⟨1, _⟩ => show win0_1.index t 1 * 1024 + 1 * q.val = Q.val; rw [(idx_w t).2, hQ]; omega
  rw [View.read_apply, hemb]
  rfl

/-- and for window 2 at (0, q). -/
theorem read_b (c : Dev nD) (A : (b : Ref sig .tc) → Buf (Elt F) ((c : Thread nD τ).loc b)) (t : Fin cfg0.N)
    (q : Fin 1024) (Q : Fin 4096) (hQ : Q.val = 1024 * (t.val / 4 % 4) + q.val) :
    ((cfg0.win 2).blk t).view.read (Elt F) (A (Pipeline.arrRef spec0 2)) (ix2 (0 : Fin 1) q) = A main_v15 (ix2 (0 : Fin 1) Q) := by
  have hemb : ((cfg0.win 2).blk t).view.emb (ix2 (0 : Fin 1) q) = ix2 (0 : Fin 1) Q := by
    funext a
    apply Fin.ext
    match a with
    | ⟨0, _⟩ => show win0_2.index t 0 * 1 + 1 * 0 = 0; rw [(idx_b t).1]
    | ⟨1, _⟩ => show win0_2.index t 1 * 1024 + 1 * q.val = Q.val; rw [(idx_b t).2, hQ]; omega
  rw [View.read_apply, hemb]
  rfl

/-- Entry (p, k) of the `x` block at point `t`. -/
theorem xblk_apply (c : Dev nD) (t : Fin cfg0.N) (p k : Fin 1024) (P K : Fin 4096)
    (hP : P.val = 1024 * (t.val / 16) + p.val) (hK : K.val = 1024 * (t.val % 4) + k.val) :
    xblk m c t (ix2 p k) = xarr m c (ix2 P K) := by
  unfold xblk xarr iblk
  exact read_x c (V m c) t p k P K hP hK

/-- Entry (k, q) of the `W` block at point `t`. -/
theorem wblk_apply (c : Dev nD) (t : Fin cfg0.N) (k q : Fin 1024) (K Q : Fin 4096)
    (hK : K.val = 1024 * (t.val % 4) + k.val) (hQ : Q.val = 1024 * (t.val / 4 % 4) + q.val) :
    wblk m c t (ix2 k q) = warr m c (ix2 K Q) := by
  unfold wblk warr iblk
  exact read_w c (V m c) t k q K Q hK hQ

/-- Entry (0, q) of the bias block at point `t`. -/
theorem bblk_apply (c : Dev nD) (t : Fin cfg0.N) (q : Fin 1024) (Q : Fin 4096)
    (hQ : Q.val = 1024 * (t.val / 4 % 4) + q.val) :
    bblk m c t (ix2 (0 : Fin 1) q) = barr m c (ix2 (0 : Fin 1) Q) := by
  unfold bblk barr iblk
  exact read_b c (V m c) t q Q hQ

end Cert.KernelIdeal.KVal

end
-- ==== Proof.Fold.lean ====
/-
  The accumulator after any grid point, and the output block at a last step, over the extended reals.

  Within a reduction run (four consecutive points `4·r, …, 4·r + 3`) the accumulator starts at zero plus the first
  point's product and gains each later point's product: after point `t` it is, entry by entry, zero plus the sum of the
  products of the points `4·(t / 4), …, t`. At the run's last point the output block is the rectifier of that
  accumulator plus the bias row.
-/
import proofs.«150053_j2310692405778_1_alg».proof.Proof.Gen.KernelIdeal.Value
import proofs.«150053_j2310692405778_1_alg».proof.Proof.Pieces
import proofs.«150053_j2310692405778_1_alg».proof.Proof.Payload
import proofs.«150053_j2310692405778_1_alg».proof.Proof.Blocks

noncomputable section

namespace Cert.KernelIdeal.KVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Point `n`'s product at an entry of the accumulator: the row-by-column sum of its `x` block and `W` block (zero
    past the grid, where it is never used). -/
def addend (c : Dev nD) (n : ℕ) (j : S1024x1024.Idx) : EReal :=
  if h : n < cfg0.N then ∑ k : Fin 1024, xblk m c ⟨n, h⟩ (ix2 (j 0) k) * wblk m c ⟨n, h⟩ (ix2 k (j 1)) else 0

theorem addend_ix2 (c : Dev nD) (n : ℕ) (h : n < cfg0.N) (p q : Fin 1024) :
    addend m c n (ix2 p q) = ∑ k : Fin 1024, xblk m c ⟨n, h⟩ (ix2 p k) * wblk m c ⟨n, h⟩ (ix2 k q) := by
  unfold addend
  rw [dif_pos h]

/-- At a run's first point the accumulator becomes zero plus the point's product, whatever it held. -/
theorem sc_first (c : Dev nD) (n : ℕ) (h : n < cfg0.N) (h0 : n % 4 = 0) (acc : Vec Ideal S1024x1024 .f32)
    (j : S1024x1024.Idx) : Value.scAt0_0 m c n h acc j = (0 : EReal) + addend m c n j := by
  have hN : n < 64 := lt_of_lt_of_eq h N_0
  obtain ⟨p, q, rfl⟩ : ∃ (p q : Fin 1024), j = ix2 p q := ⟨j 0, j 1, eq_ix2 j⟩
  unfold Value.scAt0_0
  rw [dif_pos h0, dif_neg (by omega), acc_first]
  refine (step_apply (xblk m c ⟨n, h⟩) (wblk m c ⟨n, h⟩) _ p q).trans ?_
  rw [reset_apply, addend_ix2 m c n h]

/-- At a later point it gains the point's product. -/
theorem sc_later (c : Dev nD) (n : ℕ) (h : n < cfg0.N) (h0 : ¬n % 4 = 0) (acc : Vec Ideal S1024x1024 .f32)
    (j : S1024x1024.Idx) : Value.scAt0_0 m c n h acc j = acc j + addend m c n j := by
  obtain ⟨p, q, rfl⟩ : ∃ (p q : Fin 1024), j = ix2 p q := ⟨j 0, j 1, eq_ix2 j⟩
  unfold Value.scAt0_0
  rw [dif_neg h0]
  by_cases h3 : n % 4 = 3
  · rw [dif_pos h3, acc_last]
    refine (step_apply (xblk m c ⟨n, h⟩) (wblk m c ⟨n, h⟩) _ p q).trans ?_
    rw [addend_ix2 m c n h]
  · rw [dif_neg h3, acc_middle]
    refine (step_apply (xblk m c ⟨n, h⟩) (wblk m c ⟨n, h⟩) _ p q).trans ?_
    rw [addend_ix2 m c n h]

/-- The accumulator after point `t`: zero plus the products of its run's points up to `t`. -/
theorem acc_after (c : Dev nD) (t : Fin cfg0.N) (j : S1024x1024.Idx) :
    (outsAt0 m c t.val t.isLt).2 j = (0 : EReal) + ∑ s ∈ Finset.range (t.val % 4 + 1), addend m c (4 * (t.val / 4) + s) j := by
  rw [Value.soutsAt0_0_eq]
  exact Pipeline.accAt_add_apply (β := EReal) (fun n h => Value.scAt0_0 m c n h (VS0_0.read (Elt Ideal) VS0_0.junk))
    (Value.scAt0_0 m c) (fun _ => 0) (addend m c) (4 * (t.val / 4)) 3
    (fun h i => sc_first m c _ h (by omega) _ i)
    (fun n h acc i hlt hle => sc_later m c n h (by omega) acc i)
    (t.val % 4) (by omega) _ j

/-- At a run's last point the output block is the rectifier of the new accumulator plus the bias row. -/
theorem out_after (c : Dev nD) (t : Fin cfg0.N) (h3 : t.val % 4 = 3) (p q : Fin 1024) :
    (outsAt0 m c t.val t.isLt).1 (ix2 p q)
      = Cert.Spec.act ((outsAt0 m c t.val t.isLt).2 (ix2 p q) + bblk m c t (ix2 (0 : Fin 1) q)) := by
  have h0 : ¬t.val % 4 = 0 := by omega
  rw [outsAt0_C m c t h0 h3]
  dsimp only
  rw [out_last, acc_last]
  exact emit_apply _ (bblk m c t) p q

end Cert.KernelIdeal.KVal

end
-- ==== Proof.KRun.lean ====
/-
  The kernel's result array as one function of the arrays the region reads.

  The output block of row block `r` and column block `s` is written back once, at the last point of its reduction run
  (point `16·r + 4·s + 3`). There the accumulator holds zero plus the four partial products, which together run over
  all 4096 columns of `x` and rows of `W`, so entry (p, q) of the block is the dense layer's entry
  `(1024·r + p, 1024·s + q)`. The sixteen blocks tile the array, so the whole array ends at the dense layer's output.
-/
import proofs.«150053_j2310692405778_1_alg».proof.Proof.Fold

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The dense layer's output of the three arrays as the region finds them. -/
abbrev result (c : Dev nD) : Vec Ideal S4096x4096 .f32 := Cert.Spec.dense (xarr m c) (warr m c) (barr m c)

/-- A block whose entry (p, q) is the array function's entry `(1024·(t / 16) + p, 1024·(t / 4 % 4) + q)` is what the
    output window's block at point `t` reads of that array function: stated for ANY block and array contents. -/
theorem block_of_entries (t : Fin cfg0.N) (X : Vec Ideal S1024x1024 .f32) (G : Vec Ideal S4096x4096 .f32)
    (h : ∀ (p q : Fin 1024) (P Q : Fin 4096), P.val = 1024 * (t.val / 16) + p.val → Q.val = 1024 * (t.val / 4 % 4) + q.val →
      X (ix2 p q) = G (ix2 P Q)) :
    (cfg0.win 3).cut (grid0.coords t) X = ((cfg0.win 3).blk t).view.read (Elt Ideal) G := by
  have hN : t.val < 64 := lt_of_lt_of_eq t.isLt N_0
  funext y
  have hy0 : (y 0).val < 1024 := (y 0).isLt
  have hy1 : (y 1).val < 1024 := (y 1).isLt
  have hP : 1024 * (t.val / 16) + (y 0).val < 4096 := by omega
  have hQ : 1024 * (t.val / 4 % 4) + (y 1).val < 4096 := by omega
  have hemb : ((cfg0.win 3).blk t).view.emb y
      = ix2 (⟨1024 * (t.val / 16) + (y 0).val, hP⟩ : Fin 4096) (⟨1024 * (t.val / 4 % 4) + (y 1).val, hQ⟩ : Fin 4096) := by
    funext a
    apply Fin.ext
    match a with
    | ⟨0, _⟩ => show win0_3.index t 0 * 1024 + 1 * (y 0).val = 1024 * (t.val / 16) + (y 0).val; rw [(idx_o t).1]; omega
    | ⟨1, _⟩ => show win0_3.index t 1 * 1024 + 1 * (y 1).val = 1024 * (t.val / 4 % 4) + (y 1).val; rw [(idx_o t).2]; omega
  have hx : (cfg0.win 3).xinj (grid0.coords t) y = ix2 (⟨(y 0).val, hy0⟩ : Fin 1024) (⟨(y 1).val, hy1⟩ : Fin 1024) := by
    funext a
    apply Fin.ext
    match a with
    | ⟨0, _⟩ => rfl
    | ⟨1, _⟩ => rfl
  rw [View.read_apply, hemb]
  refine Eq.trans (congrArg X hx) (Eq.trans (h ⟨(y 0).val, hy0⟩ ⟨(y 1).val, hy1⟩ ⟨1024 * (t.val / 16) + (y 0).val, hP⟩
    ⟨1024 * (t.val / 4 % 4) + (y 1).val, hQ⟩ rfl rfl) ?_)
  rfl

/-- What a run's last point writes back is its block of `result`. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  have hN : t.val < 64 := lt_of_lt_of_eq t.isLt N_0
  rw [Value.flushed3]
  refine block_of_entries t _ _ (fun p q P Q hP hQ => ?_)
  unfold result
  rw [Cert.Spec.dense_ix2, out_after m c t h3 p q, acc_after m c t (ix2 p q), bblk_apply m c t q Q hQ, zero_add]
  unfold Cert.Spec.denseAt
  rw [h3]
  refine congrArg (fun z : EReal => Cert.Spec.act (z + barr m c (ix2 (0 : Fin 1) Q))) ?_
  refine Cert.Spec.sum_blocks_range (fun k => xarr m c (ix2 P k) * warr m c (ix2 k Q)) _ (fun kb => ?_)
  have hkb := kb.isLt
  have hn : 4 * (t.val / 4) + kb.val < cfg0.N := lt_of_lt_of_eq (by omega : 4 * (t.val / 4) + kb.val < 64) N_0.symm
  rw [addend_ix2 m c _ hn]
  refine Finset.sum_congr rfl fun kk _ => ?_
  have hkk := kk.isLt
  rw [xblk_apply m c ⟨4 * (t.val / 4) + kb.val, hn⟩ p kk P (Cert.Spec.kidx kb kk)
      (by show P.val = 1024 * ((4 * (t.val / 4) + kb.val) / 16) + p.val; omega)
      (by show 1024 * kb.val + kk.val = 1024 * ((4 * (t.val / 4) + kb.val) % 4) + kk.val; omega),
    wblk_apply m c ⟨4 * (t.val / 4) + kb.val, hn⟩ kk q (Cert.Spec.kidx kb kk) Q
      (by show 1024 * kb.val + kk.val = 1024 * ((4 * (t.val / 4) + kb.val) % 4) + kk.val; omega)
      (by show Q.val = 1024 * ((4 * (t.val / 4) + kb.val) / 4 % 4) + q.val; omega)]

/-- Every entry of the array lies in the block some run's last point writes back. -/
theorem cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 64 := N_0
  have hlt : 16 * ((i 0).val / 1024) + 4 * ((i 1).val / 1024) + 3 < cfg0.N :=
    lt_of_lt_of_eq (by omega : 16 * ((i 0).val / 1024) + 4 * ((i 1).val / 1024) + 3 < 64) hN.symm
  obtain ⟨t, ht⟩ : ∃ t : Fin cfg0.N, t.val = 16 * ((i 0).val / 1024) + 4 * ((i 1).val / 1024) + 3 := ⟨⟨_, hlt⟩, rfl⟩
  refine ⟨t, (flush0_3 t).mpr (by omega), ?_⟩
  show i ∈ ((View.whole main_v16).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [(idx_o t).1]
    omega
  | ⟨1, _⟩ =>
    show win0_3.index t 1 * 1024 ≤ (i 1).val ∧ (i 1).val < win0_3.index t 1 * 1024 + 1024
    rw [(idx_o t).2]
    omega

/-- So the result array ends at the dense layer's output. -/
theorem final (c : Dev nD) : (dats m 0 c).arrAt 3 cfg0.N = result m c :=
  (dats m 0 c).arrAt_eq_of_cover 3 (result m c) (flushed_eq m c) cover

/-- The kernel's run, read: the result array at the dense layer's output, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KVal

end
-- ==== Proof.LibAfterAppend.lean ====
/-
  Running one stretch of host operations after another is running their concatenation: the contents after the
  concatenated line are the contents after the second stretch, started from the contents after the first.
-/
import Idealize.ShloMosaic.Lib.StableHlo.Run

noncomputable section

namespace Cert.LibAfterAppend

open Idealize.ShloMosaic Idealize.ShloMosaic.StableHlo

variable {τ : Topo} {sig : RefSig} {Val : EltTy → Type}

/-- The fold of a concatenation is the fold of the second list over the fold of the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend

end
-- ==== Proof.KArrays.lean ====
/-
  What the region finds in the two arrays the host writes before it.

  The weight matrix is the scatter of the weight entries at their (row, column) pairs into the zero matrix, the pairs
  made as the reference makes them (negative entries shifted up by the extent, two columns side by side); the bias
  array is the bias vector laid out as one row. The host line is read in two stretches: the operations up to the two
  index columns, then the concatenation, the scatter and the reshape.
-/
import proofs.«150053_j2310692405778_1_alg».proof.Proof.Blocks
import proofs.«150053_j2310692405778_1_alg».proof.Proof.LibAfterAppend
import Idealize.ShloMosaic.Lib.StableHlo.Run

noncomputable section

namespace Cert.KernelIdeal.KVal

open Cert.KernelIdeal Cert.KernelIdeal.Gen Idealize.ShloMosaic Idealize.ShloMosaic.TcCoe Idealize.SL.Sem
open Idealize.ShloMosaic.StableHlo

variable {F : FTy → Type} [FloatOps F]

/-- The (row, column) pairs the scatter writes at. -/
def pairs (rows cols : (⟨S1677722, .i32⟩ : BufTy).Contents (Elt F)) : (⟨S1677722x2, .i32⟩ : BufTy).Contents (Elt F) :=
  concatenate S1677722x2 1
    [⟨S1677722x1, broadcastInDim S1677722x1 ![0] bcast_S1677722_S1677722x1_0
        (select (cmpi .slt rows (broadcastInDim S1677722 ![] bcast_S_S1677722 (constantI S_ 32 0#32)))
          (addi rows (broadcastInDim S1677722 ![] bcast_S_S1677722 (constantI S_ 32 4096#32))) rows)⟩,
     ⟨S1677722x1, broadcastInDim S1677722x1 ![0] bcast_S1677722_S1677722x1_0
        (select (cmpi .slt cols (broadcastInDim S1677722 ![] bcast_S_S1677722 (constantI S_ 32 0#32)))
          (addi cols (broadcastInDim S1677722 ![] bcast_S_S1677722 (constantI S_ 32 4096#32))) cols)⟩]
    concatenates_S1677722x1_S1677722x1_S1677722x2_d1

/-- The dense weight matrix. -/
def weights (w : (⟨S1677722, .f32⟩ : BufTy).Contents (Elt F)) (rows cols : (⟨S1677722, .i32⟩ : BufTy).Contents (Elt F)) :
    (⟨S4096x4096, .f32⟩ : BufTy).Contents (Elt F) :=
  Host.scatter scatter_S4096x4096_S1677722x2_S1677722_n_01_01_1 (fun _ b => b)
    (broadcastInDim S4096x4096 ![] bcast_S_S4096x4096 (constant S_ .f32 0x00000000#32)) (pairs rows cols) w

/-- The first eighteen operations: the zero matrix, and each index vector with its negative entries shifted up by the
    extent and made a column. -/
abbrev opsA : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    nullary main_c (constantI S_ 32 0#32),
    unary main_c main_v1 (broadcastInDim S1677722 ![] bcast_S_S1677722 : (⟨S_, .i32⟩ : BufTy).Contents (Elt F) → (⟨S1677722, .i32⟩ : BufTy).Contents (Elt F)),
    binary main_arg3 main_v1 main_v2 (cmpi .slt : (⟨S1677722, .i32⟩ : BufTy).Contents (Elt F) → (⟨S1677722, .i32⟩ : BufTy).Contents (Elt F) → (⟨S1677722, .i1⟩ : BufTy).Contents (Elt F)),
    nullary main_c_0 (constantI S_ 32 4096#32),
    unary main_c_0 main_v3 (broadcastInDim S1677722 ![] bcast_S_S1677722 : (⟨S_, .i32⟩ : BufTy).Contents (Elt F) → (⟨S1677722, .i32⟩ : BufTy).Contents (Elt F)),
    binary main_arg3 main_v3 main_v4 (addi : (⟨S1677722, .i32⟩ : BufTy).Contents (Elt F) → (⟨S1677722, .i32⟩ : BufTy).Contents (Elt F) → (⟨S1677722, .i32⟩ : BufTy).Contents (Elt F)),
    ternary main_v2 main_v4 main_arg3 main_v5 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    nullary main_c_1 (constantI S_ 32 0#32),
    unary main_c_1 main_v6 (broadcastInDim S1677722 ![] bcast_S_S1677722 : (⟨S_, .i32⟩ : BufTy).Contents (Elt F) → (⟨S1677722, .i32⟩ : BufTy).Contents (Elt F)),
    binary main_arg4 main_v6 main_v7 (cmpi .slt : (⟨S1677722, .i32⟩ : BufTy).Contents (Elt F) → (⟨S1677722, .i32⟩ : BufTy).Contents (Elt F) → (⟨S1677722, .i1⟩ : BufTy).Contents (Elt F)),
    nullary main_c_2 (constantI S_ 32 4096#32),
    unary main_c_2 main_v8 (broadcastInDim S1677722 ![] bcast_S_S1677722 : (⟨S_, .i32⟩ : BufTy).Contents (Elt F) → (⟨S1677722, .i32⟩ : BufTy).Contents (Elt F)),
    binary main_arg4 main_v8 main_v9 (addi : (⟨S1677722, .i32⟩ : BufTy).Contents (Elt F) → (⟨S1677722, .i32⟩ : BufTy).Contents (Elt F) → (⟨S1677722, .i32⟩ : BufTy).Contents (Elt F)),
    ternary main_v7 main_v9 main_arg4 main_v10 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    unary main_v5 main_v11 (broadcastInDim S1677722x1 ![0] bcast_S1677722_S1677722x1_0 : (⟨S1677722, .i32⟩ : BufTy).Contents (Elt F) → (⟨S1677722x1, .i32⟩ : BufTy).Contents (Elt F)),
    unary main_v10 main_v12 (broadcastInDim S1677722x1 ![0] bcast_S1677722_S1677722x1_0 : (⟨S1677722, .i32⟩ : BufTy).Contents (Elt F) → (⟨S1677722x1, .i32⟩ : BufTy).Contents (Elt F)) ]

/-- After them the zero matrix's buffer holds zeros, -/
theorem stageA_zero (U : Valuation τ sig (Elt F)) :
    after opsA U (main_v0 : DevRef τ sig) = broadcastInDim S4096x4096 ![] bcast_S_S4096x4096 (constant S_ .f32 0x00000000#32) := by
  after_results_simp

/-- the row column holds the row indices, shifted where negative, -/
theorem stageA_rows (U : Valuation τ sig (Elt F)) :
    after opsA U (main_v11 : DevRef τ sig)
      = broadcastInDim S1677722x1 ![0] bcast_S1677722_S1677722x1_0
          (select (cmpi .slt (U (main_arg3 : DevRef τ sig)) (broadcastInDim S1677722 ![] bcast_S_S1677722 (constantI S_ 32 0#32)))
            (addi (U (main_arg3 : DevRef τ sig)) (broadcastInDim S1677722 ![] bcast_S_S1677722 (constantI S_ 32 4096#32)))
            (U (main_arg3 : DevRef τ sig))) := by
  after_results_simp

/-- the column column the column indices likewise, -/
theorem stageA_cols (U : Valuation τ sig (Elt F)) :
    after opsA U (main_v12 : DevRef τ sig)
      = broadcastInDim S1677722x1 ![0] bcast_S1677722_S1677722x1_0
          (select (cmpi .slt (U (main_arg4 : DevRef τ sig)) (broadcastInDim S1677722 ![] bcast_S_S1677722 (constantI S_ 32 0#32)))
            (addi (U (main_arg4 : DevRef τ sig)) (broadcastInDim S1677722 ![] bcast_S_S1677722 (constantI S_ 32 4096#32)))
            (U (main_arg4 : DevRef τ sig))) := by
  after_results_simp

/-- and the arguments the later operations read are untouched. -/
theorem stageA_x (U : Valuation τ sig (Elt F)) : after opsA U (main_arg0 : DevRef τ sig) = U (main_arg0 : DevRef τ sig) := by
  after_results_simp
theorem stageA_w (U : Valuation τ sig (Elt F)) : after opsA U (main_arg1 : DevRef τ sig) = U (main_arg1 : DevRef τ sig) := by
  after_results_simp
theorem stageA_b (U : Valuation τ sig (Elt F)) : after opsA U (main_arg2 : DevRef τ sig) = U (main_arg2 : DevRef τ sig) := by
  after_results_simp

/-- The last three operations before the region: the two columns side by side, the scatter, the bias as a row. -/
abbrev opsB : List (HloOp τ sig (Elt F)) :=
  [ binary main_v11 main_v12 main_v13 ((fun a b => concatenate S1677722x2 1 [⟨S1677722x1, a⟩, ⟨S1677722x1, b⟩] concatenates_S1677722x1_S1677722x1_S1677722x2_d1) : (⟨S1677722x1, .i32⟩ : BufTy).Contents (Elt F) → (⟨S1677722x1, .i32⟩ : BufTy).Contents (Elt F) → (⟨S1677722x2, .i32⟩ : BufTy).Contents (Elt F)),
    ternary main_v0 main_v13 main_arg1 main_v14 ((fun x i u => Host.scatter scatter_S4096x4096_S1677722x2_S1677722_n_01_01_1 (fun _ b => b) x i u) : (⟨S4096x4096, .f32⟩ : BufTy).Contents (Elt F) → (⟨S1677722x2, .i32⟩ : BufTy).Contents (Elt F) → (⟨S1677722, .f32⟩ : BufTy).Contents (Elt F) → (⟨S4096x4096, .f32⟩ : BufTy).Contents (Elt F)),
    StableHlo.reshape main_arg2 main_v15 rfl shapeCasts_S4096_S1x4096 ]

theorem hostOps0_split : (hostOps0 : List (HloOp τ sig (Elt F))) = opsA ++ opsB := rfl

/-- After them the weight matrix's buffer holds the scatter of what they found, -/
theorem stageB_w (U : Valuation τ sig (Elt F)) :
    after opsB U (main_v14 : DevRef τ sig)
      = Host.scatter scatter_S4096x4096_S1677722x2_S1677722_n_01_01_1 (fun _ b => b) (U (main_v0 : DevRef τ sig))
          (concatenate S1677722x2 1 [⟨S1677722x1, U (main_v11 : DevRef τ sig)⟩, ⟨S1677722x1, U (main_v12 : DevRef τ sig)⟩]
            concatenates_S1677722x1_S1677722x1_S1677722x2_d1)
          (U (main_arg1 : DevRef τ sig)) := by
  after_results
  rfl

/-- and the bias array the bias vector as one row. -/
theorem stageB_b (U : Valuation τ sig (Elt F)) :
    after opsB U (main_v15 : DevRef τ sig) = shapeCast S1x4096 (U (main_arg2 : DevRef τ sig)) shapeCasts_S4096_S1x4096 := by
  after_results
  rfl

variable (m : (ℓ : Loc nD τ sig) → Buf (Elt F) ℓ)

/-- The region finds `x` as launched, -/
theorem xarr_eq (c : Dev nD) : xarr m c = m ((c : Thread nD τ).loc main_arg0) := V_main_arg0 m c

/-- the weight matrix scattered from the launched weight entries and index vectors, -/
theorem warr_eq (c : Dev nD) :
    warr m c = weights (m ((c : Thread nD τ).loc main_arg1)) (m ((c : Thread nD τ).loc main_arg3)) (m ((c : Thread nD τ).loc main_arg4)) := by
  unfold warr weights pairs
  show after hostOps0 (fun b => m (c, b)) (main_v14 : DevRef τ sig) = _
  rw [hostOps0_split, Cert.LibAfterAppend.after_append, stageB_w, stageA_zero, stageA_rows, stageA_cols, stageA_w]
  rfl

/-- and the bias vector as one row. -/
theorem barr_eq (c : Dev nD) :
    barr m c = shapeCast S1x4096 (m ((c : Thread nD τ).loc main_arg2)) shapeCasts_S4096_S1x4096 := by
  unfold barr
  show after hostOps0 (fun b => m (c, b)) (main_v15 : DevRef τ sig) = _
  rw [hostOps0_split, Cert.LibAfterAppend.after_append, stageB_b, stageA_b]

end Cert.KernelIdeal.KVal

end
-- ==== Proof.RefRun.lean ====
/-
  The reference program's run, read back as one term of its arguments.

  The reference builds the dense weight matrix by scattering the weight entries at (row, column) pairs into a zero
  matrix (negative indices wrapped by adding the extent first), multiplies `x` by it, adds the bias row broadcast down
  the rows, and applies the leaky rectifier: the value where it is at least zero, one tenth (as an f32 literal) of it
  elsewhere. Its `@main` calls the rectifier as an outlined function, which itself calls an outlined select; with the
  callees' operations listed at their call sites the program is a straight line of host operations, and its run ends
  with the result buffer at the composition of those operations applied to the argument arrays.
-/
import proofs.«150053_j2310692405778_1_alg».proof.Proof.Gen.ReferenceIdeal
import proofs.«150053_j2310692405778_1_alg».proof.Proof.LibAfterAppend
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The (row, column) pairs the scatter writes at: each index vector with its negative entries shifted up by the
    extent, made a column, the two columns side by side. -/
def pairs (rows cols : (⟨S1677722, .i32⟩ : BufTy).Contents (Elt F)) : (⟨S1677722x2, .i32⟩ : BufTy).Contents (Elt F) :=
  concatenate S1677722x2 1
    [⟨S1677722x1, broadcastInDim S1677722x1 ![0] bcast_S1677722_S1677722x1_0
        (select (cmpi .slt rows (broadcastInDim S1677722 ![] bcast_S_S1677722 (constantI S_ 32 0#32)))
          (addi rows (broadcastInDim S1677722 ![] bcast_S_S1677722 (constantI S_ 32 4096#32))) rows)⟩,
     ⟨S1677722x1, broadcastInDim S1677722x1 ![0] bcast_S1677722_S1677722x1_0
        (select (cmpi .slt cols (broadcastInDim S1677722 ![] bcast_S_S1677722 (constantI S_ 32 0#32)))
          (addi cols (broadcastInDim S1677722 ![] bcast_S_S1677722 (constantI S_ 32 4096#32))) cols)⟩]
    concatenates_S1677722x1_S1677722x1_S1677722x2_d1

/-- The dense weight matrix: the weight entries written at their pairs into the zero matrix. -/
def weights (w : (⟨S1677722, .f32⟩ : BufTy).Contents (Elt F)) (rows cols : (⟨S1677722, .i32⟩ : BufTy).Contents (Elt F)) :
    (⟨S4096x4096, .f32⟩ : BufTy).Contents (Elt F) :=
  Host.scatter scatter_S4096x4096_S1677722x2_S1677722_n_01_01_1 (fun _ b => b)
    (broadcastInDim S4096x4096 ![] bcast_S_S4096x4096 (constant S_ .f32 0x00000000#32)) (pairs rows cols) w

/-- The rectifier's argument: the bias row broadcast down the rows plus the matrix product. -/
def affine (x W : (⟨S4096x4096, .f32⟩ : BufTy).Contents (Elt F)) (b : (⟨S4096, .f32⟩ : BufTy).Contents (Elt F)) :
    (⟨S4096x4096, .f32⟩ : BufTy).Contents (Elt F) :=
  addf (broadcastInDim S4096x4096 ![0, 1] bcast_S1x4096_S4096x4096_0_1 (broadcastInDim S1x4096 ![1] bcast_S4096_S1x4096_1 b))
    (Host.dotGeneral dot_S4096x4096_S4096x4096_S4096x4096_1_0_0_1_n_n none x W)

/-- The leaky rectifier over the whole matrix, as the outlined functions compute it. -/
def rectify (v : (⟨S4096x4096, .f32⟩ : BufTy).Contents (Elt F)) : (⟨S4096x4096, .f32⟩ : BufTy).Contents (Elt F) :=
  select (cmpf .oge v (broadcastInDim S4096x4096 ![] bcast_S_S4096x4096 (constant S_ .f32 0x00000000#32))) v
    (mulf (broadcastInDim S4096x4096 ![] bcast_S_S4096x4096 (id (constant S_ .f32 0x3DCCCCCD#32))) v)

/-- The reference's result as one term of its five arguments. -/
def out (x : (⟨S4096x4096, .f32⟩ : BufTy).Contents (Elt F)) (w : (⟨S1677722, .f32⟩ : BufTy).Contents (Elt F))
    (b : (⟨S4096, .f32⟩ : BufTy).Contents (Elt F)) (rows cols : (⟨S1677722, .i32⟩ : BufTy).Contents (Elt F)) :
    (⟨S4096x4096, .f32⟩ : BufTy).Contents (Elt F) :=
  rectify (affine x (weights w rows cols) b)

/-- The first twenty operations: they build the dense weight matrix from the weight entries and the two index vectors. -/
abbrev opsW : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    nullary main_c (constantI S_ 32 0#32),
    unary main_c main_v1 (broadcastInDim S1677722 ![] bcast_S_S1677722 : (⟨S_, .i32⟩ : BufTy).Contents (Elt F) → (⟨S1677722, .i32⟩ : BufTy).Contents (Elt F)),
    binary main_arg3 main_v1 main_v2 (cmpi .slt : (⟨S1677722, .i32⟩ : BufTy).Contents (Elt F) → (⟨S1677722, .i32⟩ : BufTy).Contents (Elt F) → (⟨S1677722, .i1⟩ : BufTy).Contents (Elt F)),
    nullary main_c_0 (constantI S_ 32 4096#32),
    unary main_c_0 main_v3 (broadcastInDim S1677722 ![] bcast_S_S1677722 : (⟨S_, .i32⟩ : BufTy).Contents (Elt F) → (⟨S1677722, .i32⟩ : BufTy).Contents (Elt F)),
    binary main_arg3 main_v3 main_v4 (addi : (⟨S1677722, .i32⟩ : BufTy).Contents (Elt F) → (⟨S1677722, .i32⟩ : BufTy).Contents (Elt F) → (⟨S1677722, .i32⟩ : BufTy).Contents (Elt F)),
    ternary main_v2 main_v4 main_arg3 main_v5 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    nullary main_c_1 (constantI S_ 32 0#32),
    unary main_c_1 main_v6 (broadcastInDim S1677722 ![] bcast_S_S1677722 : (⟨S_, .i32⟩ : BufTy).Contents (Elt F) → (⟨S1677722, .i32⟩ : BufTy).Contents (Elt F)),
    binary main_arg4 main_v6 main_v7 (cmpi .slt : (⟨S1677722, .i32⟩ : BufTy).Contents (Elt F) → (⟨S1677722, .i32⟩ : BufTy).Contents (Elt F) → (⟨S1677722, .i1⟩ : BufTy).Contents (Elt F)),
    nullary main_c_2 (constantI S_ 32 4096#32),
    unary main_c_2 main_v8 (broadcastInDim S1677722 ![] bcast_S_S1677722 : (⟨S_, .i32⟩ : BufTy).Contents (Elt F) → (⟨S1677722, .i32⟩ : BufTy).Contents (Elt F)),
    binary main_arg4 main_v8 main_v9 (addi : (⟨S1677722, .i32⟩ : BufTy).Contents (Elt F) → (⟨S1677722, .i32⟩ : BufTy).Contents (Elt F) → (⟨S1677722, .i32⟩ : BufTy).Contents (Elt F)),
    ternary main_v7 main_v9 main_arg4 main_v10 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    unary main_v5 main_v11 (broadcastInDim S1677722x1 ![0] bcast_S1677722_S1677722x1_0 : (⟨S1677722, .i32⟩ : BufTy).Contents (Elt F) → (⟨S1677722x1, .i32⟩ : BufTy).Contents (Elt F)),
    unary main_v10 main_v12 (broadcastInDim S1677722x1 ![0] bcast_S1677722_S1677722x1_0 : (⟨S1677722, .i32⟩ : BufTy).Contents (Elt F) → (⟨S1677722x1, .i32⟩ : BufTy).Contents (Elt F)),
    binary main_v11 main_v12 main_v13 ((fun a b => concatenate S1677722x2 1 [⟨S1677722x1, a⟩, ⟨S1677722x1, b⟩] concatenates_S1677722x1_S1677722x1_S1677722x2_d1) : (⟨S1677722x1, .i32⟩ : BufTy).Contents (Elt F) → (⟨S1677722x1, .i32⟩ : BufTy).Contents (Elt F) → (⟨S1677722x2, .i32⟩ : BufTy).Contents (Elt F)),
    ternary main_v0 main_v13 main_arg1 main_v14 ((fun x i u => Host.scatter scatter_S4096x4096_S1677722x2_S1677722_n_01_01_1 (fun _ b => b) x i u) : (⟨S4096x4096, .f32⟩ : BufTy).Contents (Elt F) → (⟨S1677722x2, .i32⟩ : BufTy).Contents (Elt F) → (⟨S1677722, .f32⟩ : BufTy).Contents (Elt F) → (⟨S4096x4096, .f32⟩ : BufTy).Contents (Elt F)) ]

/-- The last twelve: the matrix product, the bias broadcast and sum, and the rectifier's seven operations listed where `@main` calls it. -/
abbrev opsT : List (HloOp τ sig (Elt F)) :=
  [ binary main_arg0 main_v14 main_v15 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg2 main_v16 (broadcastInDim S1x4096 ![1] bcast_S4096_S1x4096_1 : (⟨S4096, .f32⟩ : BufTy).Contents (Elt F) → (⟨S1x4096, .f32⟩ : BufTy).Contents (Elt F)),
    unary main_v16 main_v17 (broadcastInDim S4096x4096 ![0, 1] bcast_S1x4096_S4096x4096_0_1 : (⟨S1x4096, .f32⟩ : BufTy).Contents (Elt F) → (⟨S4096x4096, .f32⟩ : BufTy).Contents (Elt F)),
    binary main_v17 main_v15 main_v18 (addf : (⟨S4096x4096, .f32⟩ : BufTy).Contents (Elt F) → (⟨S4096x4096, .f32⟩ : BufTy).Contents (Elt F) → (⟨S4096x4096, .f32⟩ : BufTy).Contents (Elt F)),
    nullary main_cst_3 (constant S_ .f32 0x3DCCCCCD#32),
    nullary main_call0_cst (constant S_ .f32 0x00000000#32),
    unary main_call0_cst main_call0_v0 (broadcastInDim S4096x4096 ![] bcast_S_S4096x4096 : (⟨S_, .f32⟩ : BufTy).Contents (Elt F) → (⟨S4096x4096, .f32⟩ : BufTy).Contents (Elt F)),
    binary main_v18 main_call0_v0 main_call0_v1 (cmpf .oge : (⟨S4096x4096, .f32⟩ : BufTy).Contents (Elt F) → (⟨S4096x4096, .f32⟩ : BufTy).Contents (Elt F) → (⟨S4096x4096, .i1⟩ : BufTy).Contents (Elt F)),
    unary main_cst_3 main_call0_v2 (id : (⟨S_, .f32⟩ : BufTy).Contents (Elt F) → (⟨S_, .f32⟩ : BufTy).Contents (Elt F)),
    unary main_call0_v2 main_call0_v3 (broadcastInDim S4096x4096 ![] bcast_S_S4096x4096 : (⟨S_, .f32⟩ : BufTy).Contents (Elt F) → (⟨S4096x4096, .f32⟩ : BufTy).Contents (Elt F)),
    binary main_call0_v3 main_v18 main_call0_v4 (mulf : (⟨S4096x4096, .f32⟩ : BufTy).Contents (Elt F) → (⟨S4096x4096, .f32⟩ : BufTy).Contents (Elt F) → (⟨S4096x4096, .f32⟩ : BufTy).Contents (Elt F)),
    ternary main_call0_v1 main_v18 main_call0_v4 main_v19 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ]

/-- `@main`'s operations in order. -/
abbrev ops : List (HloOp τ sig (Elt F)) := opsW ++ opsT

set_option maxRecDepth 2048 in
/-- `@main` is that straight line: the two callees unfolded at their calls, the sequencing reassociated. -/
theorem main_eq (c : Dev nD) : main (F := F) c = seq ops := by
  simp only [main, fn_leaky_relu.body, fn_where.body, ops, opsW, opsT, List.cons_append, List.nil_append, seq, bind_assoc, pure_bind] <;> rfl

/-- The first eighteen operations: the zero matrix, and each index vector with its negative entries shifted up by the
    extent and made a column. -/
abbrev opsA : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    nullary main_c (constantI S_ 32 0#32),
    unary main_c main_v1 (broadcastInDim S1677722 ![] bcast_S_S1677722 : (⟨S_, .i32⟩ : BufTy).Contents (Elt F) → (⟨S1677722, .i32⟩ : BufTy).Contents (Elt F)),
    binary main_arg3 main_v1 main_v2 (cmpi .slt : (⟨S1677722, .i32⟩ : BufTy).Contents (Elt F) → (⟨S1677722, .i32⟩ : BufTy).Contents (Elt F) → (⟨S1677722, .i1⟩ : BufTy).Contents (Elt F)),
    nullary main_c_0 (constantI S_ 32 4096#32),
    unary main_c_0 main_v3 (broadcastInDim S1677722 ![] bcast_S_S1677722 : (⟨S_, .i32⟩ : BufTy).Contents (Elt F) → (⟨S1677722, .i32⟩ : BufTy).Contents (Elt F)),
    binary main_arg3 main_v3 main_v4 (addi : (⟨S1677722, .i32⟩ : BufTy).Contents (Elt F) → (⟨S1677722, .i32⟩ : BufTy).Contents (Elt F) → (⟨S1677722, .i32⟩ : BufTy).Contents (Elt F)),
    ternary main_v2 main_v4 main_arg3 main_v5 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    nullary main_c_1 (constantI S_ 32 0#32),
    unary main_c_1 main_v6 (broadcastInDim S1677722 ![] bcast_S_S1677722 : (⟨S_, .i32⟩ : BufTy).Contents (Elt F) → (⟨S1677722, .i32⟩ : BufTy).Contents (Elt F)),
    binary main_arg4 main_v6 main_v7 (cmpi .slt : (⟨S1677722, .i32⟩ : BufTy).Contents (Elt F) → (⟨S1677722, .i32⟩ : BufTy).Contents (Elt F) → (⟨S1677722, .i1⟩ : BufTy).Contents (Elt F)),
    nullary main_c_2 (constantI S_ 32 4096#32),
    unary main_c_2 main_v8 (broadcastInDim S1677722 ![] bcast_S_S1677722 : (⟨S_, .i32⟩ : BufTy).Contents (Elt F) → (⟨S1677722, .i32⟩ : BufTy).Contents (Elt F)),
    binary main_arg4 main_v8 main_v9 (addi : (⟨S1677722, .i32⟩ : BufTy).Contents (Elt F) → (⟨S1677722, .i32⟩ : BufTy).Contents (Elt F) → (⟨S1677722, .i32⟩ : BufTy).Contents (Elt F)),
    ternary main_v7 main_v9 main_arg4 main_v10 (select : (⟨S1677722, .i1⟩ : BufTy).Contents (Elt F) → (⟨S1677722, .i32⟩ : BufTy).Contents (Elt F) → (⟨S1677722, .i32⟩ : BufTy).Contents (Elt F) → (⟨S1677722, .i32⟩ : BufTy).Contents (Elt F)),
    unary main_v5 main_v11 (broadcastInDim S1677722x1 ![0] bcast_S1677722_S1677722x1_0 : (⟨S1677722, .i32⟩ : BufTy).Contents (Elt F) → (⟨S1677722x1, .i32⟩ : BufTy).Contents (Elt F)),
    unary main_v10 main_v12 (broadcastInDim S1677722x1 ![0] bcast_S1677722_S1677722x1_0 : (⟨S1677722, .i32⟩ : BufTy).Contents (Elt F) → (⟨S1677722x1, .i32⟩ : BufTy).Contents (Elt F)) ]

/-- After them the zero matrix's buffer holds zeros, -/
theorem stageA_zero (U : Valuation τ sig (Elt F)) :
    after opsA U (main_v0 : DevRef τ sig) = broadcastInDim S4096x4096 ![] bcast_S_S4096x4096 (constant S_ .f32 0x00000000#32) := by
  after_results_simp

/-- the row column holds the row indices, shifted where negative, -/
theorem stageA_rows (U : Valuation τ sig (Elt F)) :
    after opsA U (main_v11 : DevRef τ sig)
      = broadcastInDim S1677722x1 ![0] bcast_S1677722_S1677722x1_0
          (select (cmpi .slt (U (main_arg3 : DevRef τ sig)) (broadcastInDim S1677722 ![] bcast_S_S1677722 (constantI S_ 32 0#32)))
            (addi (U (main_arg3 : DevRef τ sig)) (broadcastInDim S1677722 ![] bcast_S_S1677722 (constantI S_ 32 4096#32)))
            (U (main_arg3 : DevRef τ sig))) := by
  after_results_simp

/-- the column column the column indices likewise, -/
theorem stageA_cols (U : Valuation τ sig (Elt F)) :
    after opsA U (main_v12 : DevRef τ sig)
      = broadcastInDim S1677722x1 ![0] bcast_S1677722_S1677722x1_0
          (select (cmpi .slt (U (main_arg4 : DevRef τ sig)) (broadcastInDim S1677722 ![] bcast_S_S1677722 (constantI S_ 32 0#32)))
            (addi (U (main_arg4 : DevRef τ sig)) (broadcastInDim S1677722 ![] bcast_S_S1677722 (constantI S_ 32 4096#32)))
            (U (main_arg4 : DevRef τ sig))) := by
  after_results_simp

/-- and the arguments the later operations read are untouched. -/
theorem stageA_x (U : Valuation τ sig (Elt F)) : after opsA U (main_arg0 : DevRef τ sig) = U (main_arg0 : DevRef τ sig) := by
  after_results_simp
theorem stageA_w (U : Valuation τ sig (Elt F)) : after opsA U (main_arg1 : DevRef τ sig) = U (main_arg1 : DevRef τ sig) := by
  after_results_simp
theorem stageA_b (U : Valuation τ sig (Elt F)) : after opsA U (main_arg2 : DevRef τ sig) = U (main_arg2 : DevRef τ sig) := by
  after_results_simp

/-- The next two: the two columns side by side, and the scatter. -/
abbrev opsB : List (HloOp τ sig (Elt F)) :=
  [ binary main_v11 main_v12 main_v13 ((fun a b => concatenate S1677722x2 1 [⟨S1677722x1, a⟩, ⟨S1677722x1, b⟩] concatenates_S1677722x1_S1677722x1_S1677722x2_d1) : (⟨S1677722x1, .i32⟩ : BufTy).Contents (Elt F) → (⟨S1677722x1, .i32⟩ : BufTy).Contents (Elt F) → (⟨S1677722x2, .i32⟩ : BufTy).Contents (Elt F)),
    ternary main_v0 main_v13 main_arg1 main_v14 ((fun x i u => Host.scatter scatter_S4096x4096_S1677722x2_S1677722_n_01_01_1 (fun _ b => b) x i u) : (⟨S4096x4096, .f32⟩ : BufTy).Contents (Elt F) → (⟨S1677722x2, .i32⟩ : BufTy).Contents (Elt F) → (⟨S1677722, .f32⟩ : BufTy).Contents (Elt F) → (⟨S4096x4096, .f32⟩ : BufTy).Contents (Elt F)) ]

theorem opsW_split : (opsW : List (HloOp τ sig (Elt F))) = opsA ++ opsB := rfl

/-- After them the weight matrix's buffer holds the scatter of what they found, -/
theorem stageB_w (U : Valuation τ sig (Elt F)) :
    after opsB U (main_v14 : DevRef τ sig)
      = Host.scatter scatter_S4096x4096_S1677722x2_S1677722_n_01_01_1 (fun _ b => b) (U (main_v0 : DevRef τ sig))
          (concatenate S1677722x2 1 [⟨S1677722x1, U (main_v11 : DevRef τ sig)⟩, ⟨S1677722x1, U (main_v12 : DevRef τ sig)⟩]
            concatenates_S1677722x1_S1677722x1_S1677722x2_d1)
          (U (main_arg1 : DevRef τ sig)) := by
  after_results
  rfl

/-- and `x` and the bias are untouched. -/
theorem stageB_x (U : Valuation τ sig (Elt F)) : after opsB U (main_arg0 : DevRef τ sig) = U (main_arg0 : DevRef τ sig) := by
  after_results
theorem stageB_b (U : Valuation τ sig (Elt F)) : after opsB U (main_arg2 : DevRef τ sig) = U (main_arg2 : DevRef τ sig) := by
  after_results

/-- After the first twenty operations the weight matrix's buffer holds `weights` of the arguments, -/
theorem weights_stage (V : Valuation τ sig (Elt F)) :
    after opsW V (main_v14 : DevRef τ sig)
      = weights (V (main_arg1 : DevRef τ sig)) (V (main_arg3 : DevRef τ sig)) (V (main_arg4 : DevRef τ sig)) := by
  unfold weights pairs
  rw [opsW_split, Cert.LibAfterAppend.after_append, stageB_w, stageA_zero, stageA_rows, stageA_cols, stageA_w]
  rfl

/-- and `x` and the bias are untouched. -/
theorem weights_stage_x (V : Valuation τ sig (Elt F)) : after opsW V (main_arg0 : DevRef τ sig) = V (main_arg0 : DevRef τ sig) := by
  rw [opsW_split, Cert.LibAfterAppend.after_append, stageB_x, stageA_x]
theorem weights_stage_b (V : Valuation τ sig (Elt F)) : after opsW V (main_arg2 : DevRef τ sig) = V (main_arg2 : DevRef τ sig) := by
  rw [opsW_split, Cert.LibAfterAppend.after_append, stageB_b, stageA_b]

set_option maxHeartbeats 1600000 in
/-- The second stretch leaves the rectifier of the affine map of what it finds in `x`, the weight matrix and the bias. -/
theorem tail_stage (U : Valuation τ sig (Elt F)) :
    after opsT U (main_v19 : DevRef τ sig)
      = rectify (affine (U (main_arg0 : DevRef τ sig)) (U (main_v14 : DevRef τ sig)) (U (main_arg2 : DevRef τ sig))) := by
  unfold rectify affine
  after_results_simp
  try (with_reducible rfl)

/-- The operations' fold at the result buffer is `out` of the arguments. -/
theorem out_eq (V : Valuation τ sig (Elt F)) :
    after ops V (main_v19 : DevRef τ sig)
      = out (V (main_arg0 : DevRef τ sig)) (V (main_arg1 : DevRef τ sig)) (V (main_arg2 : DevRef τ sig))
          (V (main_arg3 : DevRef τ sig)) (V (main_arg4 : DevRef τ sig)) := by
  unfold out
  rw [show (ops : List (HloOp τ sig (Elt F))) = opsW ++ opsT from rfl, Cert.LibAfterAppend.after_append, tail_stage, weights_stage, weights_stage_x,
    weights_stage_b]

theorem arg0_eq (V : Valuation τ sig (Elt F)) : after ops V (main_arg0 : DevRef τ sig) = V (main_arg0 : DevRef τ sig) := by
  simp only [ops, opsW, opsT, List.cons_append, List.nil_append]
  after_results_simp
theorem arg1_eq (V : Valuation τ sig (Elt F)) : after ops V (main_arg1 : DevRef τ sig) = V (main_arg1 : DevRef τ sig) := by
  simp only [ops, opsW, opsT, List.cons_append, List.nil_append]
  after_results_simp
theorem arg2_eq (V : Valuation τ sig (Elt F)) : after ops V (main_arg2 : DevRef τ sig) = V (main_arg2 : DevRef τ sig) := by
  simp only [ops, opsW, opsT, List.cons_append, List.nil_append]
  after_results_simp
theorem arg3_eq (V : Valuation τ sig (Elt F)) : after ops V (main_arg3 : DevRef τ sig) = V (main_arg3 : DevRef τ sig) := by
  simp only [ops, opsW, opsT, List.cons_append, List.nil_append]
  after_results_simp
theorem arg4_eq (V : Valuation τ sig (Elt F)) : after ops V (main_arg4 : DevRef τ sig) = V (main_arg4 : DevRef τ sig) := by
  simp only [ops, opsW, opsT, List.cons_append, List.nil_append]
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  show List.Forall _ (_ :: _) from ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- From any memory with zero counters every weakly fair execution of the reference terminates, with the result
    buffer at `out` of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v19).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's result is the dense layer's output.

  Read at entry (p, q): the rectifier's argument is the bias row's entry of column `q` (the row broadcast down the rows)
  plus the sum over `k` of `x(p, k) · W(k, q)` (the matrix product read at an entry), and the rectifier at an entry is
  the scalar one. The dense layer adds the bias on the other side of the sum; addition of extended reals commutes.
-/
import proofs.«150053_j2310692405778_1_alg».proof.Proof.RefRun
import proofs.«150053_j2310692405778_1_alg».proof.Proof.Spec
import proofs.«150053_j2310692405778_1_alg».proof.Proof.LibPlainDot
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- The bias row broadcast down the rows, at entry (p, q): the row's entry of column q. -/
theorem bias_rows (brow : (⟨S1x4096, .f32⟩ : BufTy).Contents (Elt Ideal)) (p q : Fin 4096) :
    broadcastInDim S4096x4096 ![0, 1] bcast_S1x4096_S4096x4096_0_1 brow (ix2 p q) = brow (ix2 (0 : Fin 1) q) :=
  broadcastInDim_apply ![0, 1] bcast_S1x4096_S4096x4096_0_1 brow (ix2 p q) (ix2 (0 : Fin 1) q) (fun a => match a with
    | ⟨0, _⟩ => by
        show (0 : Nat) = if (1 : Nat) = 1 then 0 else _
        rw [if_pos rfl]
    | ⟨1, _⟩ => by
        show q.val = if (4096 : Nat) = 1 then 0 else q.val
        rw [if_neg (by decide)])

/-- The rectifier's argument at entry (p, q). -/
theorem affine_apply (x W : (⟨S4096x4096, .f32⟩ : BufTy).Contents (Elt Ideal)) (b : (⟨S4096, .f32⟩ : BufTy).Contents (Elt Ideal))
    (p q : Fin 4096) :
    RefRun.affine (F := Ideal) x W b (ix2 p q)
      = broadcastInDim S1x4096 ![1] bcast_S4096_S1x4096_1 b (ix2 (0 : Fin 1) q) + ∑ k : Fin 4096, x (ix2 p k) * W (ix2 k q) := by
  unfold RefRun.affine
  show broadcastInDim S4096x4096 ![0, 1] bcast_S1x4096_S4096x4096_0_1 (broadcastInDim S1x4096 ![1] bcast_S4096_S1x4096_1 b) (ix2 p q)
      + FloatOps.dotGeneral (F := Ideal) dot_S4096x4096_S4096x4096_S4096x4096_1_0_0_1_n_n none .single x W (ix2 p q) = _
  rw [bias_rows, Cert.LibPlainDot.dotGeneral_apply dot_S4096x4096_S4096x4096_S4096x4096_1_0_0_1_n_n rfl rfl rfl rfl rfl rfl]

/-- The whole-matrix rectifier at an entry is the scalar one. -/
theorem rectify_apply (v : (⟨S4096x4096, .f32⟩ : BufTy).Contents (Elt Ideal)) (j : S4096x4096.Idx) :
    RefRun.rectify (F := Ideal) v j = Cert.Spec.act (v j) := rfl

/-- The reference's result is the dense layer's output of `x`, the scattered weights and the bias as a row. -/
theorem out_eq_dense (x : (⟨S4096x4096, .f32⟩ : BufTy).Contents (Elt Ideal)) (w : (⟨S1677722, .f32⟩ : BufTy).Contents (Elt Ideal))
    (b : (⟨S4096, .f32⟩ : BufTy).Contents (Elt Ideal)) (rows cols : (⟨S1677722, .i32⟩ : BufTy).Contents (Elt Ideal)) :
    RefRun.out (F := Ideal) x w b rows cols
      = Cert.Spec.dense x (RefRun.weights w rows cols) (broadcastInDim S1x4096 ![1] bcast_S4096_S1x4096_1 b) := by
  funext j
  obtain ⟨p, q, rfl⟩ : ∃ (p q : Fin 4096), j = ix2 p q := ⟨j 0, j 1, eq_ix2 j⟩
  unfold RefRun.out
  generalize RefRun.weights w rows cols = W
  rw [rectify_apply, affine_apply, Cert.Spec.dense_ix2]
  unfold Cert.Spec.denseAt
  rw [add_comm]

end Cert.ReferenceIdeal.RefValue

end
-- ==== Proof.LibReshapeAsBroadcast.lean ====
/-
  A vector laid out as a one-row table, or as a one-column table, by a reshape is the same table as the one a broadcast
  along the other axis makes: both hold x k at (0, k), respectively at (k, 0).

  Both sides are read index by index. A reshape keeps the row-major position: entry (0, k) of a table of one row of
  length n sits at position 0 * n + k = k, and entry (k, 0) of a table of n rows of length one at position k * 1 + 0 = k,
  so either reads entry k of the vector. A broadcast along axis b reads the vector at the b-th coordinate of the index
  (at 0 if the vector has a single entry, which is then that same coordinate): k again.
-/
import Idealize.ShloMosaic.Lib.Pipeline.Value
import Idealize.ShloMosaic.Lib.ValueIdx

noncomputable section

namespace Idealize.ShloMosaic.ReshapeAsBroadcast

open Idealize.ShloMosaic Idealize.ShloMosaic.ValueIdx

variable {α : Type}

/-- [n] to [1, n]. -/
theorem shapeCast_row (n : Nat) (x : (⟨1, ![n]⟩ : Shape).Idx → α)
    (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ x h = broadcastInDim ⟨2, ![1, n]⟩ ![1] hb x := by
  funext j
  -- the only row is row 0; the column is below n
  have hj0 : (j 0).val = 0 := by
    have h0 : (j 0).val < 1 := (j 0).isLt
    omega
  have hj1 : (j 1).val < n := (j 1).isLt
  -- the entry of the vector both sides read
  let k : (⟨1, ![n]⟩ : Shape).Idx := fun a => ⟨(j 1).val, by
    have ha : a = 0 := Subsingleton.elim _ _
    subst ha
    exact hj1⟩
  have hL : shapeCast ⟨2, ![1, n]⟩ x h j = x k := by
    refine shapeCast_apply x h j k ?_
    rw [Shape.rowMajor_val_one, Shape.rowMajor_val_two]
    show (j 1).val = (j 0).val * n + (j 1).val
    rw [hj0]
    omega
  have hR : broadcastInDim ⟨2, ![1, n]⟩ ![1] hb x j = x k := by
    refine broadcastInDim_apply ![1] hb x j k ?_
    intro a
    have ha : a = 0 := Subsingleton.elim _ _
    subst ha
    show (j 1).val = if n = 1 then 0 else (j 1).val
    by_cases hn : n = 1
    · rw [if_pos hn]; omega
    · rw [if_neg hn]
  rw [hL, hR]

/-- [n] to [n, 1]. -/
theorem shapeCast_col (n : Nat) (x : (⟨1, ![n]⟩ : Shape).Idx → α)
    (h : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x h = broadcastInDim ⟨2, ![n, 1]⟩ ![0] hb x := by
  funext j
  -- the only column is column 0; the row is below n
  have hj1 : (j 1).val = 0 := by
    have h1 : (j 1).val < 1 := (j 1).isLt
    omega
  have hj0 : (j 0).val < n := (j 0).isLt
  let k : (⟨1, ![n]⟩ : Shape).Idx := fun a => ⟨(j 0).val, by
    have ha : a = 0 := Subsingleton.elim _ _
    subst ha
    exact hj0⟩
  have hL : shapeCast ⟨2, ![n, 1]⟩ x h j = x k := by
    refine shapeCast_apply x h j k ?_
    rw [Shape.rowMajor_val_one, Shape.rowMajor_val_two]
    show (j 0).val = (j 0).val * 1 + (j 1).val
    rw [hj1]
    omega
  have hR : broadcastInDim ⟨2, ![n, 1]⟩ ![0] hb x j = x k := by
    refine broadcastInDim_apply ![0] hb x j k ?_
    intro a
    have ha : a = 0 := Subsingleton.elim _ _
    subst ha
    show (j 0).val = if n = 1 then 0 else (j 0).val
    by_cases hn : n = 1
    · rw [if_pos hn]; omega
    · rw [if_neg hn]
  rw [hL, hR]

end Idealize.ShloMosaic.ReshapeAsBroadcast

end
-- ==== Proof.lean ====
/-
  The certificate of the sparse dense layer: a kernel that multiplies `x` by the weight matrix scattered from its
  coordinate entries, block by block with a running accumulator, then adds the bias and applies the leaky rectifier,
  against the reference that does the same with one matrix product.

  Both programs build the weight matrix by the same host operations on the same arguments. The kernel's result
  array ends, entry by entry, at the rectifier of `∑ₖ x(p, k) · W(k, q) + b(q)` (its four partial sums over blocks of
  1024 columns, added in order onto zero, together run over every column once); the reference's ends at the rectifier
  of `b(q) + ∑ₖ x(p, k) · W(k, q)`. Over the extended reals these are equal at every input, since addition is
  commutative and associative; the bias laid out as one row by a reshape is the same row a broadcast along the
  column axis makes. The three frames are the generated runs; the idealization rewrote nothing.
-/
import proofs.«150053_j2310692405778_1_alg».proof.Defs
import proofs.«150053_j2310692405778_1_alg».proof.Proof.Gen.Kernel
import proofs.«150053_j2310692405778_1_alg».proof.Proof.Gen.Kernel.Frame
import proofs.«150053_j2310692405778_1_alg».proof.Proof.Gen.KernelIdeal
import proofs.«150053_j2310692405778_1_alg».proof.Proof.Gen.KernelIdeal.Frame
import proofs.«150053_j2310692405778_1_alg».proof.Proof.Gen.KernelIdeal.Value
import proofs.«150053_j2310692405778_1_alg».proof.Proof.Gen.ReferenceIdeal
import proofs.«150053_j2310692405778_1_alg».proof.Proof.Gen.Pre_finite_inputs
import proofs.«150053_j2310692405778_1_alg».proof.Proof.KRun
import proofs.«150053_j2310692405778_1_alg».proof.Proof.KArrays
import proofs.«150053_j2310692405778_1_alg».proof.Proof.RefRun
import proofs.«150053_j2310692405778_1_alg».proof.Proof.RefValue
import proofs.«150053_j2310692405778_1_alg».proof.Proof.LibReshapeAsBroadcast
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two programs scatter the same weight matrix: the same operations, spelt in each program's own names. -/
theorem weights_eq (w : (⟨Cert.KernelIdeal.S1677722, .f32⟩ : BufTy).Contents (Elt Ideal))
    (rows cols : (⟨Cert.KernelIdeal.S1677722, .i32⟩ : BufTy).Contents (Elt Ideal)) :
    Cert.KernelIdeal.KVal.weights (F := Ideal) w rows cols = Cert.ReferenceIdeal.RefRun.weights (F := Ideal) w rows cols := by
  unfold Cert.KernelIdeal.KVal.weights Cert.ReferenceIdeal.RefRun.weights Cert.KernelIdeal.KVal.pairs Cert.ReferenceIdeal.RefRun.pairs
  rfl

/-- At the ideal values both programs end with the dense layer's output of arguments that agree. -/
theorem algebraic : Cert.algebraic_KernelIdeal_ReferenceIdeal := by
  intro m ρ m' ρ' _ hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4⟩ := hagree c
  rw [h0, h1, h2, h3, h4, Cert.ReferenceIdeal.RefValue.out_eq_dense]
  show _ = Cert.Spec.dense (Cert.KernelIdeal.KVal.xarr m c) (Cert.KernelIdeal.KVal.warr m c) (Cert.KernelIdeal.KVal.barr m c)
  rw [Cert.KernelIdeal.KVal.xarr_eq, Cert.KernelIdeal.KVal.warr_eq, Cert.KernelIdeal.KVal.barr_eq, weights_eq,
    ReshapeAsBroadcast.shapeCast_row 4096 _ Cert.KernelIdeal.Facts₀.shapeCasts_S4096_S1x4096 Cert.ReferenceIdeal.Facts₀.bcast_S4096_S1x4096_1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
